-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x128x128 : Shape := ⟨4, ![64, 3, 128, 128]⟩
abbrev S64x16x3x128x128 : Shape := ⟨5, ![64, 16, 3, 128, 128]⟩
abbrev S_ : Shape := ⟨0, ![]⟩

class Facts : Prop where
  bcast_S_S64x3x128x128 : S_.BroadcastsInDim S64x3x128x128 (![] : Fin 0 → Fin S64x3x128x128.rank)
  reducesTo_S64x3x128x128_S_d0_1_2_3 : S64x3x128x128.ReducesTo [0, 1, 2, 3] S_
  h_S_ : 0 < S_.numel
  bcast_S_S64x16x3x128x128 : S_.BroadcastsInDim S64x16x3x128x128 (![] : Fin 0 → Fin S64x16x3x128x128.rank)
  reducesTo_S64x16x3x128x128_S_d0_1_2_3_4 : S64x16x3x128x128.ReducesTo [0, 1, 2, 3, 4] S_

variable [Facts]

def fn {F : FTy → Type} [FloatOps F] (main_arg0 : FVec F S64x3x128x128 .f32) (main_arg1 : FVec F S64x16x3x128x128 .f32) : IVec S_ 1 :=
  let main_v0 : FVec F S64x3x128x128 .f32 := Host.absf main_arg0
  let main_cst : FVec F S_ .f32 := constant S_ .f32 0x7F800000#32
  let main_v1 : FVec F S64x3x128x128 .f32 := broadcastInDim S64x3x128x128 ![] bcast_S_S64x3x128x128 main_cst
  let main_v2 : IVec S64x3x128x128 1 := cmpf .olt main_v0 main_v1
  let main_c : IVec S_ 1 := constantI S_ 1 1#1
  let main_v3 : IVec S_ 1 := (fun x v => Host.reduce IntOp.andi x v reducesTo_S64x3x128x128_S_d0_1_2_3 h_S_) main_v2 main_c
  let main_v4 : FVec F S64x16x3x128x128 .f32 := Host.absf main_arg1
  let main_cst_0 : FVec F S_ .f32 := constant S_ .f32 0x7F800000#32
  let main_v5 : FVec F S64x16x3x128x128 .f32 := broadcastInDim S64x16x3x128x128 ![] bcast_S_S64x16x3x128x128 main_cst_0
  let main_v6 : IVec S64x16x3x128x128 1 := cmpf .olt main_v4 main_v5
  let main_c_1 : IVec S_ 1 := constantI S_ 1 1#1
  let main_v7 : IVec S_ 1 := (fun x v => Host.reduce IntOp.andi x v reducesTo_S64x16x3x128x128_S_d0_1_2_3_4 h_S_) main_v6 main_c_1
  let main_v8 : IVec S_ 1 := andi main_v3 main_v7
  main_v8
-- ==== Kernel.lean ====
abbrev S64x3x128x128 : Shape := ⟨4, ![64, 3, 128, 128]⟩
abbrev S64x16x3x128x128 : Shape := ⟨5, ![64, 16, 3, 128, 128]⟩
abbrev S64x1 : Shape := ⟨2, ![64, 1]⟩
abbrev S8x4x3x128x128 : Shape := ⟨5, ![8, 4, 3, 128, 128]⟩
abbrev S8x3x128x128 : Shape := ⟨4, ![8, 3, 128, 128]⟩
abbrev S8x1 : Shape := ⟨2, ![8, 1]⟩
abbrev S8x1x3x128x128 : Shape := ⟨5, ![8, 1, 3, 128, 128]⟩
abbrev S8x4x3x128 : Shape := ⟨4, ![8, 4, 3, 128]⟩
abbrev S8x4x3 : Shape := ⟨3, ![8, 4, 3]⟩
abbrev S8x4 : Shape := ⟨2, ![8, 4]⟩
abbrev S8 : Shape := ⟨1, ![8]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S64x3x128x128, .f32⟩
  | .hbm, ⟨1, _⟩ => ⟨S64x16x3x128x128, .f32⟩
  | .hbm, ⟨2, _⟩ => ⟨S64x1, .f32⟩
  | .hbm, ⟨3, _⟩ => ⟨S_, .f32⟩
  | .hbm, ⟨4, _⟩ => ⟨S_, .f32⟩
  | .local _ .vmem, ⟨0, _⟩ => ⟨S8x4x3x128x128, .f32⟩
  | .local _ .vmem, ⟨1, _⟩ => ⟨S8x4x3x128x128, .f32⟩
  | .local _ .vmem, ⟨2, _⟩ => ⟨S8x3x128x128, .f32⟩
  | .local _ .vmem, ⟨3, _⟩ => ⟨S8x3x128x128, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | _, _ => ⟨S64x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_16 : BitVec 32 := 0#32
  let v21 : BitVec 1 := Scalar.cmpi .ne v20 c0_i32_16
  v21

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x4x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x4x3x128x128_S8x4x3x128x128_0_0_0_0_0 : ∀ a, (![0, 0, 0, 0, 0] : Fin 5 → Nat) a + S8x4x3x128x128.size a ≤ S8x4x3x128x128.size a
  h_S8x4x3x128x128 : 0 < S8x4x3x128x128.numel
  inb_S8x3x128x128_S8x3x128x128_0_0_0_0 : ∀ a, (![0, 0, 0, 0] : Fin 4 → Nat) a + S8x3x128x128.size a ≤ S8x3x128x128.size a
  h_S8x3x128x128 : 0 < S8x3x128x128.numel
  shapeCasts_S8x3x128x128_S8x1x3x128x128 : S8x3x128x128.ShapeCasts S8x1x3x128x128
  broadcasts_S8x1x3x128x128_S8x4x3x128x128 : S8x1x3x128x128.Broadcasts S8x4x3x128x128
  reduces_S8x4x3x128x128_S8x4x3x128 : S8x4x3x128x128.Reduces [4] S8x4x3x128
  reduces_S8x4x3x128_S8x4x3 : S8x4x3x128.Reduces [3] S8x4x3
  reduces_S8x4x3_S8x4 : S8x4x3.Reduces [2] S8x4
  reduces_S8x4_S8 : S8x4.Reduces [1] S8
  shapeCasts_S8_S8x1 : S8.ShapeCasts S8x1
  reducesTo_S64x1_S_d0_1 : S64x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x3x128x128.size a ≤ S64x16x3x128x128.size a
  hwx0_0 : ∀ i : grid0.Coords, EltTy.bits .f32 = 32 ∨ (Rect.block (s := S64x16x3x128x128) S8x4x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x128.size a ≤ S64x3x128x128.size a
  hwx0_1 : ∀ i : grid0.Coords, EltTy.bits .f32 = 32 ∨ (Rect.block (s := S64x3x128x128) S8x3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

abbrev win0_0 : Pipeline.Window sig grid0 :=
  Pipeline.Window.ofSpec (Memref.whole main_arg1) S8x4x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x3x128x128 : Shape := ⟨4, ![64, 3, 128, 128]⟩
abbrev S64x16x3x128x128 : Shape := ⟨5, ![64, 16, 3, 128, 128]⟩
abbrev S64x1x3x128x128 : Shape := ⟨5, ![64, 1, 3, 128, 128]⟩
abbrev S_ : Shape := ⟨0, ![]⟩
abbrev S64x16 : Shape := ⟨2, ![64, 16]⟩
abbrev S64 : Shape := ⟨1, ![64]⟩

abbrev nBuf : Space → Nat
  | .hbm => 12
  | .vmem => 0
  | .smem => 0
  | _ => 0

abbrev bufTy : (tb : Table) → Fin (tcTables nBuf tb) → BufTy
  | .hbm, ⟨0, _⟩ => ⟨S64x3x128x128, .f32⟩
  | .hbm, ⟨1, _⟩ => ⟨S64x16x3x128x128, .f32⟩
  | .hbm, ⟨2, _⟩ => ⟨S64x1x3x128x128, .f32⟩
  | .hbm, ⟨3, _⟩ => ⟨S64x16x3x128x128, .f32⟩
  | .hbm, ⟨4, _⟩ => ⟨S64x16x3x128x128, .f32⟩
  | .hbm, ⟨5, _⟩ => ⟨S64x16x3x128x128, .f32⟩
  | .hbm, ⟨6, _⟩ => ⟨S_, .f32⟩
  | .hbm, ⟨7, _⟩ => ⟨S64x16, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S_, .f32⟩
  | _, _ => ⟨S64x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S64x3x128x128_S64x1x3x128x128_0_2_3_4 : S64x3x128x128.BroadcastsInDim S64x1x3x128x128 (![0, 2, 3, 4] : Fin 4 → Fin S64x1x3x128x128.rank)
  bcast_S64x1x3x128x128_S64x16x3x128x128_0_1_2_3_4 : S64x1x3x128x128.BroadcastsInDim S64x16x3x128x128 (![0, 1, 2, 3, 4] : Fin 5 → Fin S64x16x3x128x128.rank)
  reducesTo_S64x16x3x128x128_S64x16_d2_3_4 : S64x16x3x128x128.ReducesTo [2, 3, 4] S64x16
  h_S_ : 0 < S_.numel
  reducesTo_S64x16_S64_d1 : S64x16.ReducesTo [1] S64
  reducesTo_S64_S_d0 : S64.ReducesTo [0] S_

variable [Facts₀]

class Facts : Prop extends Facts₀ where

variable [Facts]
-- ==== Proof.Pieces.lean ====
/-
  What one grid point leaves behind, case by case. At a row tile's first sample tile the accumulator is first set to
  the +∞ column and then updated, so it ends at the point's update of the +∞ column; at every later sample tile it ends
  at the point's update of what the point before left; and at the last sample tile the output block receives a copy of
  the accumulator just updated. In each case the update is the body's one arithmetic term of the sample block, the
  input block and the accumulator it read.
-/
import proofs.«134149_j75711683493951_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- First sample tile of a row tile: the accumulator ends at the update of the +∞ column. -/
theorem acc_first (c : Dev nD) (i : grid0.Coords) (arg2 : Memref sig .tc .vmem S8x4x3x128x128 .f32) (harg2 : arg2.IsWhole) (arg3 : Memref sig .tc .vmem S8x3x128x128 .f32) (harg3 : arg3.IsWhole) (arg4 : Memref sig .tc .vmem S8x1 .f32) (harg4 : arg4.IsWhole) (arg5 : Memref sig .tc .vmem S8x1 .f32) (harg5 : arg5.IsWhole) (hc0 : cond0_0 i) (hc1 : ¬cond0_1 i)
    (x0 : Vec F S8x4x3x128x128 .f32) (x1 : Vec F S8x3x128x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x1) hz2, View.readCov_unit_zero (S := S8x1) _ hz2]
  simp only [View.readAt_eq_ld, harg2.read_unread, harg3.read_unread, View.ld_unit_zero (S := S8x4x3x128x128) hz5,
    View.ld_unit_zero (S := S8x3x128x128) hz4]

/-- A middle sample tile: the accumulator ends at the update of what it held. -/
theorem acc_mid (c : Dev nD) (i : grid0.Coords) (arg2 : Memref sig .tc .vmem S8x4x3x128x128 .f32) (harg2 : arg2.IsWhole) (arg3 : Memref sig .tc .vmem S8x3x128x128 .f32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : ¬cond0_1 i)
    (x0 : Vec F S8x4x3x128x128 .f32) (x1 : Vec F S8x3x128x128 .f32) (xs0 : Vec F S8x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S8x4x3x128x128) hz5, View.ld_unit_zero (S := S8x3x128x128) hz4, View.ld_unit_zero (S := S8x1) hz2]

/-- The last sample tile: the accumulator ends at the update of what it held, -/
theorem acc_last (c : Dev nD) (i : grid0.Coords) (arg2 : Memref sig .tc .vmem S8x4x3x128x128 .f32) (harg2 : arg2.IsWhole) (arg3 : Memref sig .tc .vmem S8x3x128x128 .f32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : cond0_1 i)
    (x0 : Vec F S8x4x3x128x128 .f32) (x1 : Vec F S8x3x128x128 .f32) (xs0 : Vec F S8x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S8x4x3x128x128) hz5, View.ld_unit_zero (S := S8x3x128x128) hz4, View.ld_unit_zero (S := S8x1) hz2]

/-- and the output block receives the same column. -/
theorem out_last (c : Dev nD) (i : grid0.Coords) (arg2 : Memref sig .tc .vmem S8x4x3x128x128 .f32) (harg2 : arg2.IsWhole) (arg3 : Memref sig .tc .vmem S8x3x128x128 .f32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : cond0_1 i)
    (x0 : Vec F S8x4x3x128x128 .f32) (x1 : Vec F S8x3x128x128 .f32) (xs0 : Vec F S8x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S8x1) _ hz2]
  simp only [View.readAt_eq_ld, harg2.read_unread, harg3.read_unread, harg5.read_unread,
    View.ld_unit_zero (S := S8x4x3x128x128) hz5, View.ld_unit_zero (S := S8x3x128x128) hz4, View.ld_unit_zero (S := S8x1) hz2]

end Cert.KernelIdeal.Pieces

end
-- ==== Proof.Blocks.lean ====
/-
  Where a grid point's blocks sit in the arrays. Point `t` of the 8 × 4 grid works on row tile `t / 4` and sample tile
  `t % 4`: entry `(r, s, c, h, w)` of its sample block is entry `(8 (t / 4) + r, 4 (t % 4) + s, c, h, w)` of the samples,
  entry `(r, c, h, w)` of its input block is entry `(8 (t / 4) + r, c, h, w)` of the inputs, and its output block is rows
  `8 (t / 4)` … `8 (t / 4) + 7` of the [64, 1] result of the region.
-/
import proofs.«134149_j75711683493951_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The sample window's block index at point `t`: row tile, sample tile, and 0 on the three whole axes. -/
theorem idx_sam : ∀ t : Fin cfg0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0 :=
  (by decide +kernel : ∀ t : Fin grid0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0)

/-- The input window's block index at point `t`: the row tile, and 0 on the three whole axes. -/
theorem idx_inp : ∀ t : Fin cfg0.N, win0_1.index t (0 : Fin 4) = t.val / 4 ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val / 4 ∧ win0_1.index t (1 : Fin 4) = 0
    ∧ win0_1.index t (2 : Fin 4) = 0 ∧ win0_1.index t (3 : Fin 4) = 0)

/-- The output window's block index at point `t`: the row tile, and 0 on the unit axis. -/
theorem idx_out : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

theorem lt32 (t : Fin cfg0.N) : t.val < 32 := lt_of_lt_of_eq t.isLt (show cfg0.N = 32 from N_0)

/-- The batch row that row `r` of point `t`'s tile is. -/
def rowOf (t : Fin cfg0.N) (r : Fin 8) : Fin 64 :=
  ⟨8 * (t.val / 4) + r.val, by have := lt32 t; have := r.isLt; omega⟩

/-- The sample that sample `s` of point `t`'s tile is. -/
def samOf (t : Fin cfg0.N) (s : Fin 4) : Fin 16 :=
  ⟨4 * (t.val % 4) + s.val, by have := s.isLt; omega⟩

/-- The blocks and the arrays, at their literal types. -/
abbrev samBlk (c : Dev nD) (t : Fin cfg0.N) : Vec F S8x4x3x128x128 .f32 := iblk m c 0 t
abbrev inpBlk (c : Dev nD) (t : Fin cfg0.N) : Vec F S8x3x128x128 .f32 := iblk m c 1 t
abbrev samArr (c : Dev nD) : Vec F S64x16x3x128x128 .f32 := V m c main_arg1
abbrev inpArr (c : Dev nD) : Vec F S64x3x128x128 .f32 := V m c main_arg0

/-- An entry of the sample block is the samples' entry at the tile's row and sample. -/
theorem samBlk_apply (c : Dev nD) (t : Fin cfg0.N) (r : Fin 8) (s : Fin 4) (ch : Fin 3) (h w : Fin 128) :
    samBlk m c t (ix5 r s ch h w) = samArr m c (ix5 (rowOf t r) (samOf t s) ch h w) := by
  obtain ⟨e0, e1, e2, e3, e4⟩ := idx_sam t
  show iblk m c 0 t _ = _
  unfold iblk
  rw [View.read_apply]
  show V m c main_arg1 _ = V m c main_arg1 _
  congr 1
  funext a
  apply Fin.ext
  match a with
  | ⟨0, _⟩ => show win0_0.index t 0 * 8 + 1 * r.val = 8 * (t.val / 4) + r.val; rw [e0]; omega
  | ⟨1, _⟩ => show win0_0.index t 1 * 4 + 1 * s.val = 4 * (t.val % 4) + s.val; rw [e1]; omega
  | ⟨2, _⟩ => show win0_0.index t 2 * 3 + 1 * ch.val = ch.val; rw [e2]; omega
  | ⟨3, _⟩ => show win0_0.index t 3 * 128 + 1 * h.val = h.val; rw [e3]; omega
  | ⟨4, _⟩ => show win0_0.index t 4 * 128 + 1 * w.val = w.val; rw [e4]; omega

/-- An entry of the input block is the inputs' entry at the tile's row. -/
theorem inpBlk_apply (c : Dev nD) (t : Fin cfg0.N) (r : Fin 8) (ch : Fin 3) (h w : Fin 128) :
    inpBlk m c t (ix4 r ch h w) = inpArr m c (ix4 (rowOf t r) ch h w) := by
  obtain ⟨e0, e1, e2, e3⟩ := idx_inp t
  show iblk m c 1 t _ = _
  unfold iblk
  rw [View.read_apply]
  show V m c main_arg0 _ = V m c main_arg0 _
  congr 1
  funext a
  apply Fin.ext
  match a with
  | ⟨0, _⟩ => show win0_1.index t 0 * 8 + 1 * r.val = 8 * (t.val / 4) + r.val; rw [e0]; omega
  | ⟨1, _⟩ => show win0_1.index t 1 * 3 + 1 * ch.val = ch.val; rw [e1]; omega
  | ⟨2, _⟩ => show win0_1.index t 2 * 128 + 1 * h.val = h.val; rw [e2]; omega
  | ⟨3, _⟩ => show win0_1.index t 3 * 128 + 1 * w.val = w.val; rw [e3]; omega

end Cert.KernelIdeal.Blocks

end
-- ==== Proof.Dist.lean ====
/-
  The quantity both programs compute. For a batch row `n` and a sample `s`, `sqDist n s` is the squared Euclidean
  distance between sample `s` of row `n` and the row's input image: the sum over channel, height and width of
  the squared difference. `rowMin n` is the least such distance over the 16 samples of the row (+∞ is neutral for
  `min`), and `loss` the sum of the 64 row minima.

  A minimum taken in instalments is carried by its universal property: `x` is the minimum of `f` below `k` when
  the lower bounds of `x` are exactly the common lower bounds of `f s`, `s < k`. Nothing lies below index 0, so +∞
  is the minimum there; taking `min` with the minimum of the next four values moves `k` on by four; and at `k = 16`
  the value is the minimum over all samples.
-/
import Idealize.ShloMosaic.PureOps.Ideal
import Idealize.ShloMosaic.Lib.ValueIdx
import Mathlib.Algebra.BigOperators.Fin
import Mathlib.Data.EReal.Basic
import Mathlib.Data.Finset.Fold

noncomputable section

open scoped BigOperators

namespace Cert.MinDist

open Idealize.ShloMosaic Idealize.ShloMosaic.ValueIdx

/-- The input images: batch, channel, height, width. -/
abbrev SIn : Shape := ⟨4, ![64, 3, 128, 128]⟩
/-- The samples: batch, sample, channel, height, width. -/
abbrev SSam : Shape := ⟨5, ![64, 16, 3, 128, 128]⟩

/-- The squared difference of one sample entry and the matching input entry. -/
def sq (inp : SIn.Idx → EReal) (sam : SSam.Idx → EReal) (n : Fin 64) (s : Fin 16) (c : Fin 3) (h w : Fin 128) : EReal :=
  (sam (ix5 n s c h w) - inp (ix4 n c h w)) * (sam (ix5 n s c h w) - inp (ix4 n c h w))

/-- The squared distance between sample `s` of row `n` and the row's input image. -/
def sqDist (inp : SIn.Idx → EReal) (sam : SSam.Idx → EReal) (n : Fin 64) (s : Fin 16) : EReal :=
  ∑ c : Fin 3, ∑ h : Fin 128, ∑ w : Fin 128, sq inp sam n s c h w

/-- The least squared distance over the samples of row `n`. -/
def rowMin (inp : SIn.Idx → EReal) (sam : SSam.Idx → EReal) (n : Fin 64) : EReal :=
  (Finset.univ : Finset (Fin 16)).fold min ⊤ (sqDist inp sam n)

/-- The loss: the sum over the batch of the row minima. -/
def loss (inp : SIn.Idx → EReal) (sam : SSam.Idx → EReal) : EReal :=
  ∑ n : Fin 64, rowMin inp sam n

/-! ## A minimum taken four values at a time -/

/-- `x` is the minimum of the values `f s`, `s < k`: its lower bounds are their common lower bounds. -/
def IsMinBelow (f : Fin 16 → EReal) (k : ℕ) (x : EReal) : Prop :=
  ∀ c : EReal, c ≤ x ↔ ∀ s : Fin 16, s.val < k → c ≤ f s

/-- Below index 0 there is nothing: the minimum is +∞. -/
theorem isMinBelow_zero (f : Fin 16 → EReal) : IsMinBelow f 0 ⊤ :=
  fun _ => ⟨fun _ _ h => absurd h (Nat.not_lt_zero _), fun _ => le_top⟩

/-- From the minimum below `4 j` to the minimum below `4 (j + 1)`: take `min` with the minimum of the four values
    `f (4 j)`, …, `f (4 j + 3)` (itself a fold of `min` from +∞). -/
theorem isMinBelow_step (f : Fin 16 → EReal) (j : ℕ) (hj : j < 4) (x : EReal) (hx : IsMinBelow f (4 * j) x) :
    IsMinBelow f (4 * (j + 1))
      (min x ((Finset.univ : Finset (Fin 4)).fold min ⊤ fun s' => f ⟨4 * j + s'.val, by have := s'.isLt; omega⟩)) := by
  intro c
  rw [le_min_iff, hx c, Finset.le_fold_min]
  constructor
  · rintro ⟨h1, -, h2⟩ s hs
    by_cases h : s.val < 4 * j
    · exact h1 s h
    · have e : s = ⟨4 * j + (⟨s.val - 4 * j, by omega⟩ : Fin 4).val, by have := s.isLt; simp only; omega⟩ :=
        Fin.ext (by simp only; omega)
      rw [e]
      exact h2 ⟨s.val - 4 * j, by omega⟩ (Finset.mem_univ _)
  · intro h
    exact ⟨fun s hs => h s (by omega), le_top, fun s' _ => h _ (by have := s'.isLt; simp only; omega)⟩

/-- The minimum below 16 is the minimum over all sixteen values. -/
theorem eq_fold_of_isMinBelow (f : Fin 16 → EReal) (x : EReal) (hx : IsMinBelow f 16 x) :
    x = (Finset.univ : Finset (Fin 16)).fold min ⊤ f :=
  eq_of_forall_le_iff fun c => by
    rw [hx c, Finset.le_fold_min]
    exact ⟨fun h => ⟨le_top, fun s _ => h s s.isLt⟩, fun h s _ => h.2 s (Finset.mem_univ _)⟩

/-! ## Sums by coordinates -/

/-- A sum over the entries of a [a, 1] column is the sum over its rows. -/
theorem sum_col {M : Type*} [AddCommMonoid M] {a : ℕ} (f : (⟨2, ![a, 1]⟩ : Shape).Idx → M) :
    ∑ i, f i = ∑ r : Fin a, f (ix2 r 0) := by
  rw [sum_idx2]
  exact Finset.sum_congr rfl fun r _ => Fin.sum_univ_one _

/-- A rank-1 index set is its one coordinate range, so a sum over it is the sum over the coordinate. -/
theorem sum_vec {M : Type*} [AddCommMonoid M] {n : ℕ} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

end Cert.MinDist

end
-- ==== Proof.Tile.lean ====
/-
  One grid point's arithmetic, read at a row. The body takes a tile of 8 batch rows by 4 samples; for each row it
  forms the squared differences of the four samples against the row's input block (the input block broadcast over the
  sample axis), adds them over width, then height, then channel, takes the least of the four sums (a fold of `min`
  from +∞) and stores `min` of that with the accumulator's entry for the row. The value stored at a tile's first
  point over a fresh accumulator starts from the +∞ column.
-/
import proofs.«134149_j75711683493951_1_alg».proof.Proof.Gen.KernelIdeal.Skeleton
import proofs.«134149_j75711683493951_1_alg».proof.Proof.Dist
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The pattern of +∞ denotes the top extended real. -/
theorem ofBits_inf : Ideal.ofBits .f32 0x7F800000#32 = ⊤ := by simp [Ideal.ofBits, Ideal.ieee]

/-- A column [8] viewed as [8, 1] reads row `r` at `(r, 0)`. -/
theorem col_apply {α : Type} (v : S8.Idx → α) (h : S8.ShapeCasts S8x1) (r : Fin 8) (z : Fin 1) :
    shapeCast S8x1 v h (ix2 r z) = v (ix1 r) := by
  refine shapeCast_apply v h (ix2 r z) (ix1 r) ?_
  rw [Shape.rowMajor_val_one, Shape.rowMajor_val_two]
  show r.val = r.val * 1 + z.val
  have := z.isLt
  omega

/-- The input block [8, 3, 128, 128], given a unit sample axis and broadcast over the four samples, reads
    `(r, c, h, w)` at `(r, s, c, h, w)` whatever `s`. -/
theorem bcast_apply {α : Type} (v : S8x3x128x128.Idx → α) (hc : S8x3x128x128.ShapeCasts S8x1x3x128x128)
    (hb : S8x1x3x128x128.Broadcasts S8x4x3x128x128) (r : Fin 8) (s : Fin 4) (c : Fin 3) (h w : Fin 128) :
    broadcastTo S8x4x3x128x128 (shapeCast S8x1x3x128x128 v hc) hb (ix5 r s c h w) = v (ix4 r c h w) := by
  refine (broadcastTo_apply _ hb (ix5 r s c h w) (ix5 r (0 : Fin 1) c h w) (fun a => match a with
    | ⟨0, _⟩ => by show r.val = if (8 : Nat) = 1 then 0 else r.val; rw [if_neg (by decide)]
    | ⟨1, _⟩ => by show 0 = if (1 : Nat) = 1 then 0 else s.val; rw [if_pos rfl]
    | ⟨2, _⟩ => by show c.val = if (3 : Nat) = 1 then 0 else c.val; rw [if_neg (by decide)]
    | ⟨3, _⟩ => by show h.val = if (128 : Nat) = 1 then 0 else h.val; rw [if_neg (by decide)]
    | ⟨4, _⟩ => by show w.val = if (128 : Nat) = 1 then 0 else w.val; rw [if_neg (by decide)])).trans ?_
  refine shapeCast_apply v hc (ix5 r (0 : Fin 1) c h w) (ix4 r c h w) ?_
  rw [Shape.rowMajor_val_four, Shape.rowMajor_val_five]
  show ((r.val * 3 + c.val) * 128 + h.val) * 128 + w.val = (((r.val * 1 + 0) * 3 + c.val) * 128 + h.val) * 128 + w.val
  omega

/-- Three lane sums in a row — over width, then height, then channel — are the triple sum over the three coordinates. -/
theorem sum3_apply (v : FVec Ideal S8x4x3x128x128 .f32)
    (h4 : S8x4x3x128x128.Reduces [4] S8x4x3x128) (h3 : S8x4x3x128.Reduces [3] S8x4x3) (h2 : S8x4x3.Reduces [2] S8x4)
    (hφ : FKind.Formats .f32) (hacc : (0x00000000#32 : BitVec 32) = FKind.add.neutral .f32 hφ) (r : Fin 8) (s : Fin 4) :
    multiReduction .add [2] S8x4 (multiReduction .add [3] S8x4x3 (multiReduction .add [4] S8x4x3x128 v 0x00000000#32 h4 hφ hacc)
      0x00000000#32 h3 hφ hacc) 0x00000000#32 h2 hφ hacc (ix2 r s)
      = ∑ c : Fin 3, ∑ h : Fin 128, ∑ w : Fin 128, v (ix5 r s c h w) := by
  rw [Ideal.multiReduction_add_single]
  refine Finset.sum_congr rfl fun c _ => ?_
  rw [Ideal.multiReduction_add_single]
  refine Finset.sum_congr rfl fun h _ => ?_
  rw [Ideal.multiReduction_add_single]
  refine Finset.sum_congr rfl fun w _ => congrArg v ?_
  funext a
  apply Fin.ext
  match a with
  | ⟨0, _⟩ => rfl
  | ⟨1, _⟩ => rfl
  | ⟨2, _⟩ => rfl
  | ⟨3, _⟩ => rfl
  | ⟨4, _⟩ => rfl

/-- The lane minimum over the four samples of a row: the fold of `min` from +∞ over the sample coordinate. -/
theorem min4_apply (v : FVec Ideal S8x4 .f32) (h1 : S8x4.Reduces [1] S8) (hφ : FKind.Formats .f32)
    (hacc : (0x7F800000#32 : BitVec 32) = FKind.minimumf.neutral .f32 hφ) (r : Fin 8) :
    multiReduction .minimumf [1] S8 v 0x7F800000#32 h1 hφ hacc (ix1 r)
      = (Finset.univ : Finset (Fin 4)).fold min ⊤ fun s => v (ix2 r s) := by
  rw [multiReduction_minimumf_eq_fold]
  refine (h1.fold_filter_drop_single _ _ v (ix1 r)).trans ?_
  rw [Ideal.ofBits_def, ofBits_inf]
  refine congrArg (fun f => (Finset.univ : Finset (Fin 4)).fold min ⊤ f) (funext fun s => congrArg v ?_)
  funext a
  apply Fin.ext
  match a with
  | ⟨0, _⟩ => rfl
  | ⟨1, _⟩ => rfl

/-- The +∞ column a row tile's first point stores before anything else. -/
theorem pay1_apply (i : S8x1.Idx) : k0_pay1 (F := Ideal) i = ⊤ := by
  unfold k0_pay1
  refine (congrFun (shapeCast_self _ _) i).trans ?_
  exact ofBits_inf

/-- What a point stores for row `r` of its tile: `min` of the accumulator's entry and the least, over the tile's four
    samples, of the squared distance of the sample block's row from the input block's row. -/
theorem pay2_apply (x0 : Vec Ideal S8x4x3x128x128 .f32) (x1 : Vec Ideal S8x3x128x128 .f32) (acc : Vec Ideal S8x1 .f32)
    (r : Fin 8) :
    k0_pay2 (F := Ideal) x0 x1 acc (ix2 r 0)
      = min (acc (ix2 r 0)) ((Finset.univ : Finset (Fin 4)).fold min ⊤ fun s =>
          ∑ c : Fin 3, ∑ h : Fin 128, ∑ w : Fin 128,
            (x0 (ix5 r s c h w) - x1 (ix4 r c h w)) * (x0 (ix5 r s c h w) - x1 (ix4 r c h w))) := by
  unfold k0_pay2
  refine (congrFun (shapeCast_self _ _) (ix2 r 0)).trans ?_
  refine congrArg (min (acc (ix2 r 0))) ?_
  refine (col_apply _ _ r 0).trans ?_
  refine (min4_apply _ _ _ _ r).trans ?_
  refine congrArg (fun f => (Finset.univ : Finset (Fin 4)).fold min ⊤ f) (funext fun s => ?_)
  refine (sum3_apply _ _ _ _ _ _ r s).trans ?_
  refine Finset.sum_congr rfl fun c _ => Finset.sum_congr rfl fun h _ => Finset.sum_congr rfl fun w _ => ?_
  show (x0 (ix5 r s c h w) - broadcastTo S8x4x3x128x128 (shapeCast S8x1x3x128x128 x1 _) _ (ix5 r s c h w))
      * (x0 (ix5 r s c h w) - broadcastTo S8x4x3x128x128 (shapeCast S8x1x3x128x128 x1 _) _ (ix5 r s c h w)) = _
  rw [bcast_apply]

end Cert.KernelIdeal.Tile

end
-- ==== Proof.Carry.lean ====
/-
  The carried accumulator across the grid. After point `t` (row tile `t / 4`, sample tile `t % 4`) the accumulator's
  entry for row `r` of the tile is the least squared distance of batch row `8 (t / 4) + r` from its first
  `4 (t % 4 + 1)` samples: at a row tile's first sample tile it is the point's update of +∞, afterwards the point's update
  of what the point before left, and each update takes `min` with the least distance over the point's four samples.
  At the last sample tile the output block receives that column, which by then is the row minimum over all 16 samples.
-/
import proofs.«134149_j75711683493951_1_alg».proof.Proof.Pieces
import proofs.«134149_j75711683493951_1_alg».proof.Proof.Blocks
import proofs.«134149_j75711683493951_1_alg».proof.Proof.Tile
import proofs.«134149_j75711683493951_1_alg».proof.Proof.Dist

set_option maxRecDepth 16384

noncomputable section

open scoped BigOperators

namespace Cert.KernelIdeal.Carry

open Cert.KernelIdeal Cert.KernelIdeal.Gen Cert.KernelIdeal.Blocks Cert.KernelIdeal.Pieces Cert.KernelIdeal.Tile Cert.MinDist
open Idealize.ShloMosaic Idealize.ShloMosaic.TcCoe Idealize.SL.Sem Idealize.ShloMosaic.ValueIdx

/-! ## What the accumulator and the output block hold after a point, by case (any float instance) -/

section AnyInstance

variable {F : FTy → Type} [FloatOps F]
variable (m : (ℓ : Loc nD τ sig) → Buf (Elt F) ℓ)

/-- The accumulator as the point before `t` left it. -/
abbrev accBefore (c : Dev nD) (t : Fin cfg0.N) : Vec F S8x1 .f32 :=
  (outsAt0 m c (t.val - 1) (Nat.lt_of_le_of_lt (Nat.sub_le _ _) t.isLt)).2

theorem acc_first_at (c : Dev nD) (t : Fin cfg0.N) (h0 : t.val % 4 = 0) (h1 : ¬t.val % 4 = 3) :
    (outsAt0 m c t.val t.isLt).2 = k0_pay2 (samBlk m c t) (inpBlk m c t) (k0_pay1 (F := F)) := by
  rw [outsAt0_A m c t h0 h1]
  dsimp only
  exact acc_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem acc_mid_at (c : Dev nD) (t : Fin cfg0.N) (h0 : ¬t.val % 4 = 0) (h1 : ¬t.val % 4 = 3) :
    (outsAt0 m c t.val t.isLt).2 = k0_pay2 (samBlk m c t) (inpBlk m c t) (accBefore m c t) := by
  rw [outsAt0_B m c t h0 h1]
  dsimp only
  exact acc_mid c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem acc_last_at (c : Dev nD) (t : Fin cfg0.N) (h0 : ¬t.val % 4 = 0) (h1 : t.val % 4 = 3) :
    (outsAt0 m c t.val t.isLt).2 = k0_pay2 (samBlk m c t) (inpBlk m c t) (accBefore m c t) := by
  rw [outsAt0_C m c t h0 h1]
  dsimp only
  exact acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

theorem out_last_at (c : Dev nD) (t : Fin cfg0.N) (h0 : ¬t.val % 4 = 0) (h1 : t.val % 4 = 3) :
    (outsAt0 m c t.val t.isLt).1 = k0_pay2 (samBlk m c t) (inpBlk m c t) (accBefore m c t) := by
  rw [outsAt0_C m c t h0 h1]
  dsimp only
  exact out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

end AnyInstance

/-! ## The running minimum, at the ideal instance -/

variable (m : (ℓ : Loc nD τ sig) → Buf (Elt Ideal) ℓ)

/-- The squared distances of batch row `n` from its 16 samples, of the arrays the region finds. -/
abbrev rowDist (d : Dev nD) (n : Fin 64) : Fin 16 → EReal := sqDist (inpArr m d) (samArr m d) n

/-- One point's update moves the running minimum on by the point's four samples. -/
theorem tile_step (d : Dev nD) (t : Fin cfg0.N) (r : Fin 8) (acc : Vec Ideal S8x1 .f32)
    (hacc : IsMinBelow (rowDist m d (rowOf t r)) (4 * (t.val % 4)) (acc (ix2 r 0))) :
    IsMinBelow (rowDist m d (rowOf t r)) (4 * (t.val % 4 + 1))
      (k0_pay2 (F := Ideal) (samBlk m d t) (inpBlk m d t) acc (ix2 r 0)) := by
  rw [pay2_apply]
  have h := isMinBelow_step (rowDist m d (rowOf t r)) (t.val % 4) (Nat.mod_lt _ (by decide)) _ hacc
  have e : (fun s : Fin 4 => ∑ c : Fin 3, ∑ h : Fin 128, ∑ w : Fin 128,
        (samBlk m d t (ix5 r s c h w) - inpBlk m d t (ix4 r c h w)) * (samBlk m d t (ix5 r s c h w) - inpBlk m d t (ix4 r c h w)))
      = fun s' : Fin 4 => rowDist m d (rowOf t r) ⟨4 * (t.val % 4) + s'.val, by have := s'.isLt; omega⟩ := by
    funext s
    simp only [samBlk_apply, inpBlk_apply]
    rfl
  rw [e]
  exact h

/-- After point `n` the accumulator's entry for row `r` of the tile is the minimum of that batch row's distances
    below `4 (n % 4 + 1)`: by induction on the point. -/
theorem carried (d : Dev nD) : ∀ (n : ℕ) (hn : n < cfg0.N) (r : Fin 8),
    IsMinBelow (rowDist m d (rowOf ⟨n, hn⟩ r)) (4 * (n % 4 + 1)) ((outsAt0 m d n hn).2 (ix2 r 0))
  | 0, hn, r => by
    rw [show (outsAt0 m d 0 hn).2 = _ from acc_first_at m d ⟨0, hn⟩ rfl (by show ¬((0 : ℕ) % 4 = 3); decide)]
    exact tile_step m d ⟨0, hn⟩ r _ (by rw [pay1_apply]; exact isMinBelow_zero _)
  | n + 1, hn, r => by
    have ih := carried d n (Nat.lt_of_succ_lt hn) r
    by_cases h0 : (n + 1) % 4 = 0
    · have h1 : ¬(n + 1) % 4 = 3 := by omega
      rw [show (outsAt0 m d (n + 1) hn).2 = _ from acc_first_at m d ⟨n + 1, hn⟩ h0 h1]
      refine tile_step m d ⟨n + 1, hn⟩ r _ ?_
      rw [pay1_apply]
      show IsMinBelow _ (4 * ((n + 1) % 4)) ⊤
      rw [h0]
      exact isMinBelow_zero _
    · have key : IsMinBelow (rowDist m d (rowOf ⟨n + 1, hn⟩ r)) (4 * ((n + 1) % 4))
          ((outsAt0 m d n (Nat.lt_of_succ_lt hn)).2 (ix2 r 0)) := by
        have e1 : rowOf ⟨n + 1, hn⟩ r = rowOf ⟨n, Nat.lt_of_succ_lt hn⟩ r := Fin.ext (by simp only [rowOf]; omega)
        have e2 : 4 * ((n + 1) % 4) = 4 * (n % 4 + 1) := by omega
        rw [e1, e2]
        exact ih
      by_cases h1 : (n + 1) % 4 = 3
      · rw [show (outsAt0 m d (n + 1) hn).2 = _ from acc_last_at m d ⟨n + 1, hn⟩ h0 h1]
        exact tile_step m d ⟨n + 1, hn⟩ r _ key
      · rw [show (outsAt0 m d (n + 1) hn).2 = _ from acc_mid_at m d ⟨n + 1, hn⟩ h0 h1]
        exact tile_step m d ⟨n + 1, hn⟩ r _ key

/-- At a row tile's last sample tile the output block's entry for row `r` is the row minimum of the batch row. -/
theorem out_at_last (d : Dev nD) (t : Fin cfg0.N) (h3 : t.val % 4 = 3) (r : Fin 8) :
    (outsAt0 m d t.val t.isLt).1 (ix2 r 0) = rowMin (inpArr m d) (samArr m d) (rowOf t r) := by
  have h0 : ¬t.val % 4 = 0 := by omega
  rw [out_last_at m d t h0 h3, ← acc_last_at m d t h0 h3]
  refine eq_fold_of_isMinBelow _ _ ?_
  have h := carried m d t.val t.isLt r
  rw [h3] at h
  exact h

end Cert.KernelIdeal.Carry

end
-- ==== Proof.Final.lean ====
/-
  From the grid to the result. The region's [64, 1] result is written back one block per row tile, at the tile's last
  sample tile, and that block is the column of row minima of the tile's eight batch rows; the eight blocks tile the
  array, so the array ends at the column of all 64 row minima. The host then adds the column from 0: the loss.
-/
import proofs.«134149_j75711683493951_1_alg».proof.Proof.Carry
import Idealize.ShloMosaic.Lib.StableHlo.Run
import Idealize.ShloMosaic.PureOps.Ideal.Laws

set_option maxRecDepth 16384

noncomputable section

open scoped BigOperators

namespace Cert.KernelIdeal.Final

open Cert.KernelIdeal Cert.KernelIdeal.Gen Cert.KernelIdeal.Blocks Cert.KernelIdeal.Carry Cert.MinDist
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The column of row minima: entry (n, 0) is the least squared distance of batch row `n` from its samples. -/
abbrev minCol (d : Dev nD) : Vec Ideal S64x1 .f32 :=
  fun i => rowMin (inpArr m d) (samArr m d) ⟨(i 0).val, (i 0).isLt⟩

/-- What a row tile's last point writes back is the tile's block of the column of row minima. -/
theorem flushed_eq (d : Dev nD) (t : Fin cfg0.N) (hf : (cfg0.win 2).flush t = true) :
    (dats m 0 d).flushed 2 t = ((cfg0.win 2).blk t).view.read (Elt Ideal) (minCol m d) := by
  have h3 : t.val % 4 = 3 := (flush0_2 t).mp hf
  obtain ⟨e0, e1⟩ := idx_out t
  show (cfg0.win 2).cut (grid0.coords t) ((dats m 0 d).after 2 t) = _
  rw [after0_2]
  funext j
  obtain ⟨r, z, rfl⟩ : ∃ (r : Fin 8) (z : Fin 1), j = ix2 r z := ⟨j 0, j 1, eq_ix2 j⟩
  obtain rfl : z = 0 := Subsingleton.elim _ _
  show (outsAt0 m d t.val t.isLt).1 (ix2 r 0) = minCol m d (((cfg0.win 2).blk t).view.emb (ix2 r 0))
  rw [out_at_last m d t h3 r]
  refine congrArg (rowMin (inpArr m d) (samArr m d)) (Fin.ext ?_)
  show 8 * (t.val / 4) + r.val = win0_2.index t 0 * 8 + 1 * r.val
  rw [e0]
  omega

/-- An index of the result is in point `t`'s block iff each coordinate is in the block's range on its axis. -/
theorem mem_blk (t : Fin cfg0.N) (i : S64x1.Idx) :
    i ∈ ((cfg0.win 2).blk t).view.set
      ↔ ∀ a : Fin 2, win0_2.index t a * S8x1.size a ≤ (i a).val ∧ (i a).val < win0_2.index t a * S8x1.size a + S8x1.size a := by
  show i ∈ ((View.whole main_v0).slice (win0_2.rect t)).set ↔ _
  rw [View.set_slice_whole, Rect.mem_set_unit]
  exact Iff.rfl

/-- Every row of the result is in the block some row tile's last point writes back: row `i` in that of tile `i / 8`. -/
theorem cover (i : S64x1.Idx) :
    ∃ t : Fin cfg0.N, (cfg0.win 2).flush t = true ∧ i ∈ ((cfg0.win 2).blk t).view.set := by
  have hi0 : (i 0).val < 64 := (i 0).isLt
  have hi1 : (i 1).val < 1 := (i 1).isLt
  obtain ⟨t, ht⟩ : ∃ t : Fin cfg0.N, t.val = 4 * ((i 0).val / 8) + 3 :=
    ⟨⟨4 * ((i 0).val / 8) + 3, by rw [show cfg0.N = 32 from N_0]; omega⟩, rfl⟩
  obtain ⟨e0, e1⟩ := idx_out t
  refine ⟨t, (flush0_2 t).mpr (by omega), ?_⟩
  rw [mem_blk]
  intro a
  match a with
  | ⟨0, _⟩ =>
    show win0_2.index t 0 * 8 ≤ (i 0).val ∧ (i 0).val < win0_2.index t 0 * 8 + 8
    rw [e0]; omega
  | ⟨1, _⟩ =>
    show win0_2.index t 1 * 1 ≤ (i 1).val ∧ (i 1).val < win0_2.index t 1 * 1 + 1
    rw [e1]; omega

/-- So the region's result ends at the column of row minima. -/
theorem region_result (d : Dev nD) : (dats m 0 d).arrAt 2 cfg0.N = minCol m d :=
  (dats m 0 d).arrAt_eq_of_cover 2 (minCol m d) (flushed_eq m d) cover

/-- The host's sum of a [64, 1] column from 0 is the sum of its 64 entries. -/
theorem sum_rows (col : Vec Ideal S64x1 .f32) (h' : S64x1.ReducesTo [0, 1] S_) (hS : 0 < S_.numel) (i : S_.Idx) :
    Host.reduceAdd col (constant (F := Ideal) S_ .f32 0x00000000#32) h' hS i = ∑ n : Fin 64, col (ix2 n 0) := by
  simp only [Host.reduceAdd, Ideal.hostReduceAdd_def]
  rw [Ideal.hostReduceAdd_total h' (fun b => b.elim0), sum_col]
  show Ideal.ofBits .f32 0x00000000#32 + _ = _
  rw [Ideal.ofBits_zero_f32, zero_add]

/-- After the host lines that follow the region the result buffer holds the loss. -/
theorem tail_value (d : Dev nD) :
    Pipeline.afterTail₀ cfgs (dats m) 0 (V0 m) [hostOps1] d main_v1 = fun _ => loss (inpArr m d) (samArr m d) := by
  unfold Pipeline.afterTail₀
  show StableHlo.after hostOps1 _ (Proc.devRef .tc main_v1) = _
  after_results
  rw [show Pipeline.withArrays spec0 d _ _ (Proc.devRef .tc main_v0) = _ from
    (Pipeline.withArrays_arr spec0 launch0.win.arr_inj d _ _ 2).trans (region_result m d)]
  funext i
  rw [sum_rows]
  rfl

/-- The kernel's run, read: the result at the loss of the argument arrays, the arguments unchanged. -/
theorem run : θ_run defs (onTc (τ := τ) (main (F := Ideal))) ⟨m, fun _ => 0, ρ⟩ fun r => ∀ c : Dev nD,
      r.2.mem ((c.tc : Thread nD τ).loc main_v1) = (fun _ => loss (inpArr m c) (samArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail_value m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Final

end
-- ==== Proof.Ref.lean ====
/-
  The reference, stage by stage, is the loss. Its elementwise stages give the squared difference at each entry; its sum
  over the channel, height and width axes at (n, s) runs over the entries whose first two coordinates are (n, s), which
  are in bijection with the triples (c, h, w): the squared distance `sqDist n s`; its minimum over the sample axis from +∞
  is the row minimum; and its sum over the batch from 0 is the loss.
-/
import proofs.«134149_j75711683493951_1_alg».proof.Proof.Gen.ReferenceIdeal.Read
import proofs.«134149_j75711683493951_1_alg».proof.Proof.Dist
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.MinDist
open Idealize.ShloMosaic Idealize.ShloMosaic.ValueIdx

variable (x0 : (⟨S64x3x128x128, .f32⟩ : BufTy).Contents (Elt Ideal)) (x1 : (⟨S64x16x3x128x128, .f32⟩ : BufTy).Contents (Elt Ideal))

theorem ofBits_inf : Ideal.ofBits .f32 0x7F800000#32 = ⊤ := by simp [Ideal.ofBits, Ideal.ieee]

/-- The product stage at an entry: the squared difference of the sample entry and the input entry of the same row. -/
theorem sq_stage (n : Fin 64) (s : Fin 16) (c : Fin 3) (h w : Fin 128) :
    val_main_v3 (F := Ideal) x0 x1 (ix5 n s c h w) = sq x0 x1 n s c h w := by
  rw [val_main_v3_apply, val_main_v2_apply, val_main_v1_apply, val_main_v0_apply]
  have e : idx_main_v0 (idx_main_v1 (ix5 n s c h w)) = ix4 n c h w := by
    funext a
    apply Fin.ext
    match a with
    | ⟨0, _⟩ => rfl
    | ⟨1, _⟩ => rfl
    | ⟨2, _⟩ => rfl
    | ⟨3, _⟩ => rfl
  rw [e]
  rfl

/-- The entries whose first two coordinates are (n, s), summed, are the triples (c, h, w), summed. -/
theorem sum_over_chw (h' : S64x16x3x128x128.ReducesTo [2, 3, 4] S64x16) (x : S64x16x3x128x128.Idx → EReal)
    (n : Fin 64) (s : Fin 16) :
    ∑ i ∈ Finset.univ.filter (fun i => h'.drop i = ix2 n s), x i
      = ∑ c : Fin 3, ∑ h : Fin 128, ∑ w : Fin 128, x (ix5 n s c h w) := by
  have e : ∑ c : Fin 3, ∑ h : Fin 128, ∑ w : Fin 128, x (ix5 n s c h w)
      = ∑ p : Fin 3 × Fin 128 × Fin 128, x (ix5 n s p.1 p.2.1 p.2.2) := by
    rw [Fintype.sum_prod_type]
    refine Finset.sum_congr rfl fun c _ => ?_
    rw [Fintype.sum_prod_type]
  rw [e]
  have linv : ∀ i ∈ Finset.univ.filter (fun i : S64x16x3x128x128.Idx => h'.drop i = ix2 n s),
      ix5 n s (i 2 : Fin 3) (i 3 : Fin 128) (i 4 : Fin 128) = i := by
    intro i hi
    have hj := (Finset.mem_filter.1 hi).2
    funext a
    apply Fin.ext
    match a with
    | ⟨0, _⟩ => exact (congrArg Fin.val (congrFun hj 0)).symm
    | ⟨1, _⟩ => exact (congrArg Fin.val (congrFun hj 1)).symm
    | ⟨2, _⟩ => rfl
    | ⟨3, _⟩ => rfl
    | ⟨4, _⟩ => rfl
  refine Finset.sum_nbij' (fun i => ((i 2 : Fin 3), (i 3 : Fin 128), (i 4 : Fin 128)))
    (fun p => ix5 n s p.1 p.2.1 p.2.2) ?_ ?_ linv ?_ ?_
  · intro i _; exact Finset.mem_univ _
  · intro p _
    refine Finset.mem_filter.2 ⟨Finset.mem_univ _, ?_⟩
    funext b
    apply Fin.ext
    match b with
    | ⟨0, _⟩ => rfl
    | ⟨1, _⟩ => rfl
  · intro p _; rfl
  · intro i hi; exact congrArg x (linv i hi).symm

/-- The first reduction at (n, s): the squared distance. -/
theorem dist_stage (n : Fin 64) (s : Fin 16) :
    val_main_v4 (F := Ideal) x0 x1 (ix2 n s) = sqDist x0 x1 n s := by
  unfold val_main_v4
  generalize hy : val_main_v3 (F := Ideal) x0 x1 = y
  simp only [Host.reduceAdd, Ideal.hostReduceAdd_def]
  unfold Ideal.hostReduceAdd
  rw [sum_over_chw]
  have e0 : val_main_cst (F := Ideal) (Shape.Idx.first h_S_) = 0 := Ideal.ofBits_zero_f32
  rw [e0, zero_add]
  unfold sqDist
  refine Finset.sum_congr rfl fun c _ => Finset.sum_congr rfl fun h _ => Finset.sum_congr rfl fun w _ => ?_
  rw [← hy]
  exact sq_stage x0 x1 n s c h w

/-- The minimum over the sample axis at n: the row minimum. -/
theorem rowMin_stage (n : Fin 64) :
    val_main_v5 (F := Ideal) x0 x1 (ix1 n) = rowMin x0 x1 n := by
  unfold val_main_v5
  rw [Host.reduce_eq_fold_single FloatOps.minimumf _ _ reducesTo_S64x16_S64_d1 (by decide : S64x16.Reduces [1] S64) h_S_ (ix1 n)]
  have e0 : val_main_cst_0 (F := Ideal) (Shape.Idx.first h_S_) = ⊤ := ofBits_inf
  rw [e0]
  unfold rowMin
  refine congrArg (fun f => (Finset.univ : Finset (Fin 16)).fold min ⊤ f) (funext fun k => ?_)
  refine Eq.trans ?_ (dist_stage x0 x1 n k)
  refine congrArg (val_main_v4 (F := Ideal) x0 x1) ?_
  funext a
  apply Fin.ext
  match a with
  | ⟨0, _⟩ => rfl
  | ⟨1, _⟩ => rfl

/-- The reference's result is the loss. -/
theorem result_eq : val_main_v6 (F := Ideal) x0 x1 = fun _ => loss x0 x1 := by
  funext i
  rw [val_main_v6_apply]
  have e0 : val_main_cst_1 (F := Ideal) (Shape.Idx.first h_S_) = 0 := Ideal.ofBits_zero_f32
  rw [e0, zero_add, sum_vec]
  unfold loss
  exact Finset.sum_congr rfl fun n _ => rowMin_stage x0 x1 n

end Cert.ReferenceIdeal.RefValue

end
-- ==== Proof.lean ====
/- The certificate of the min-distance loss: the kernel streams the samples in tiles of 8 batch rows by 4 samples,
   keeps per row the least squared distance seen so far in a carried accumulator (reset to +∞ at a row tile's first
   sample tile, written out at its last), and the host adds the 64 minima; the reference takes the squared
   distances, their minimum over the 16 samples and the sum over the batch in one pass. At the ideal instance both
   are the same extended real: sums over (channel, height, width) may be nested or flat, and a minimum over 16
   samples is the minimum of the minima of four groups of 4, +∞ being neutral. -/
import proofs.«134149_j75711683493951_1_alg».proof.Defs
import proofs.«134149_j75711683493951_1_alg».proof.Proof.Gen.Kernel
import proofs.«134149_j75711683493951_1_alg».proof.Proof.Gen.Kernel.Skeleton
import proofs.«134149_j75711683493951_1_alg».proof.Proof.Gen.Kernel.Launch
import proofs.«134149_j75711683493951_1_alg».proof.Proof.Gen.Kernel.Points
import proofs.«134149_j75711683493951_1_alg».proof.Proof.Gen.Kernel.Frame
import proofs.«134149_j75711683493951_1_alg».proof.Proof.Gen.KernelIdeal
import proofs.«134149_j75711683493951_1_alg».proof.Proof.Gen.KernelIdeal.Skeleton
import proofs.«134149_j75711683493951_1_alg».proof.Proof.Gen.KernelIdeal.Launch
import proofs.«134149_j75711683493951_1_alg».proof.Proof.Gen.KernelIdeal.Points
import proofs.«134149_j75711683493951_1_alg».proof.Proof.Gen.KernelIdeal.Frame
import proofs.«134149_j75711683493951_1_alg».proof.Proof.Gen.ReferenceIdeal
import proofs.«134149_j75711683493951_1_alg».proof.Proof.Gen.ReferenceIdeal.Run
import proofs.«134149_j75711683493951_1_alg».proof.Proof.Gen.ReferenceIdeal.Read
import proofs.«134149_j75711683493951_1_alg».proof.Proof.Gen.Pre_finite_inputs
import proofs.«134149_j75711683493951_1_alg».proof.Proof.Final
import proofs.«134149_j75711683493951_1_alg».proof.Proof.Ref
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance the kernel's result and the reference's are both the loss of the argument arrays: the sum
    over the batch of the least squared distance of a row's input from its 16 samples. -/
theorem algebraic : Cert.algebraic_KernelIdeal_ReferenceIdeal := by
  intro m ρ m' ρ' _ hagree
  refine ⟨fun c => fun _ => Cert.MinDist.loss (Cert.KernelIdeal.Blocks.inpArr m c) (Cert.KernelIdeal.Blocks.samArr m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
